-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x2 .f32) (main_arg4 : FVec F S2 .f32) (main_arg5 : IVec S2x3200000 32) (main_arg6 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x16 : Shape := ⟨2, ![100000, 16]⟩
abbrev S2000x512 : Shape := ⟨2, ![2000, 512]⟩
abbrev S2000x16 : Shape := ⟨2, ![2000, 16]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S2000x2 : Shape := ⟨2, ![2000, 2]⟩
abbrev S3300000x2 : Shape := ⟨2, ![3300000, 2]⟩
abbrev S1x2 : Shape := ⟨2, ![1, 2]⟩
abbrev S256x2 : Shape := ⟨2, ![256, 2]⟩
abbrev S100000x1 : Shape := ⟨2, ![100000, 1]⟩
abbrev S256 : Shape := ⟨1, ![256]⟩
abbrev S256x1 : Shape := ⟨2, ![256, 1]⟩

abbrev nBuf : Space → Nat
  | .hbm => 143
  | .vmem => 10
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x2, .f32⟩
  | 4 => ⟨S2, .f32⟩
  | 5 => ⟨S2x3200000, .i32⟩
  | 6 => ⟨S100000, .i32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S100000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S3300000x1, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000x16, .f32⟩
  | 51 => ⟨S3300000x16, .f32⟩
  | 52 => ⟨S3300000x16, .f32⟩
  | 53 => ⟨S_, .f32⟩
  | 54 => ⟨S100000x16, .f32⟩
  | 55 => ⟨S3300000x1, .i32⟩
  | 56 => ⟨S100000x16, .f32⟩
  | 57 => ⟨S1x16, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S100000x2, .f32⟩
  | 64 => ⟨S100000, .i32⟩
  | 65 => ⟨S3300000, .i32⟩
  | 66 => ⟨S3300000, .i32⟩
  | 67 => ⟨S_, .f32⟩
  | 68 => ⟨S3300000, .f32⟩
  | 69 => ⟨S_, .f32⟩
  | 70 => ⟨S100000, .f32⟩
  | 71 => ⟨S3300000x1, .i32⟩
  | 72 => ⟨S100000, .f32⟩
  | 73 => ⟨S100000, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S3300000x1, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x2, .f32⟩
  | 103 => ⟨S3300000x2, .f32⟩
  | 104 => ⟨S3300000x2, .f32⟩
  | 105 => ⟨S_, .f32⟩
  | 106 => ⟨S100000x2, .f32⟩
  | 107 => ⟨S3300000x1, .i32⟩
  | 108 => ⟨S100000x2, .f32⟩
  | 109 => ⟨S1x2, .f32⟩
  | 110 => ⟨S100000x2, .f32⟩
  | 111 => ⟨S100000x2, .f32⟩
  | 112 => ⟨S_, .f32⟩
  | 113 => ⟨S256x2, .f32⟩
  | 114 => ⟨S100000x1, .i32⟩
  | 115 => ⟨S256x2, .f32⟩
  | 116 => ⟨S_, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .f32⟩
  | 123 => ⟨S256, .f32⟩
  | 124 => ⟨S256, .f32⟩
  | 125 => ⟨S256x1, .f32⟩
  | 126 => ⟨S256x2, .f32⟩
  | 127 => ⟨S256x2, .f32⟩
  | _ => ⟨S100000x512, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S256x1, .f32⟩
  | 6 => ⟨S256x2, .f32⟩
  | 7 => ⟨S256x2, .f32⟩
  | 8 => ⟨S256x2, .f32⟩
  | 9 => ⟨S_, .f32⟩
  | 10 => ⟨S256, .f32⟩
  | 11 => ⟨S256x1, .f32⟩
  | 12 => ⟨S256x1, .f32⟩
  | 13 => ⟨S256x2, .f32⟩
  | 14 => ⟨S256x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x2, .f32⟩
  | .local _ .vmem, ⟨8, _⟩ => ⟨S2000x2, .f32⟩
  | .local _ .vmem, ⟨9, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call1_cst : Ref sig .tc := ⟨.hbm, 128, rfl⟩
abbrev main_call1_v0 : Ref sig .tc := ⟨.hbm, 129, rfl⟩
abbrev main_call1_cst_0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_cst_1 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_v97 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x2_S16x2_0_0 : ∀ a, (![0, 0] : Fin 2 → Nat) a + S16x2.size a ≤ S16x2.size a
  h_S16x2 : 0 < S16x2.numel
  inb_S2000x2_S2000x2_0_0 : ∀ a, (![0, 0] : Fin 2 → Nat) a + S2000x2.size a ≤ S2000x2.size a
  h_S2000x2 : 0 < S2000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S256x2 : S_.BroadcastsInDim S256x2 (![] : Fin 0 → Fin S256x2.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  reducesTo_S256x2_S256_d1 : S256x2.ReducesTo [1] S256
  h_S_ : 0 < S_.numel
  dot_S2000x512_S512x16_S2000x16_1_0_0_1_n_n_wf : DotDims.WF S2000x512 S512x16 S2000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x2_S2000x2_1_0_0_1_n_n_wf : DotDims.WF S2000x16 S16x2 S2000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S256x2_S100000x1_S100000x2_1_0_0_1_wf : ScatterDims.WF S256x2 S100000x1 S100000x2 [1] [0] [0] 1
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S100000x2.size a
  hwx1_2 : ∀ i : grid1.Coords, EltTy.bits .f32 = 32 ∨ (Rect.block (s := S100000x2) S2000x2.size (cc1_transform_2 i) (hinb1_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S256x2_S100000x1_S100000x2_1_0_0_1 : ScatterDims S256x2 S100000x1 S100000x2 where
  updateWindowDims := [1]
  insertedWindowDims := [0]
  scatterDimsToOperandDims := [0]
  indexVectorDim := 1
  wf := scatter_S256x2_S100000x1_S100000x2_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x16 : Shape := ⟨2, ![100000, 16]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S256x2 : Shape := ⟨2, ![256, 2]⟩
abbrev S100000x1 : Shape := ⟨2, ![100000, 1]⟩
abbrev S256 : Shape := ⟨1, ![256]⟩
abbrev S256x1 : Shape := ⟨2, ![256, 1]⟩

abbrev nBuf : Space → Nat
  | .hbm => 143
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x2, .f32⟩
  | 4 => ⟨S2, .f32⟩
  | 5 => ⟨S2x3200000, .i32⟩
  | 6 => ⟨S100000, .i32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S100000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S3300000x1, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000x16, .f32⟩
  | 51 => ⟨S3300000x16, .f32⟩
  | 52 => ⟨S3300000x16, .f32⟩
  | 53 => ⟨S_, .f32⟩
  | 54 => ⟨S100000x16, .f32⟩
  | 55 => ⟨S3300000x1, .i32⟩
  | 56 => ⟨S100000x16, .f32⟩
  | 57 => ⟨S1x16, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S100000x2, .f32⟩
  | 64 => ⟨S100000, .i32⟩
  | 65 => ⟨S3300000, .i32⟩
  | 66 => ⟨S3300000, .i32⟩
  | 67 => ⟨S_, .f32⟩
  | 68 => ⟨S3300000, .f32⟩
  | 69 => ⟨S_, .f32⟩
  | 70 => ⟨S100000, .f32⟩
  | 71 => ⟨S3300000x1, .i32⟩
  | 72 => ⟨S100000, .f32⟩
  | 73 => ⟨S100000, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S3300000x1, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x2, .f32⟩
  | 103 => ⟨S3300000x2, .f32⟩
  | 104 => ⟨S3300000x2, .f32⟩
  | 105 => ⟨S_, .f32⟩
  | 106 => ⟨S100000x2, .f32⟩
  | 107 => ⟨S3300000x1, .i32⟩
  | 108 => ⟨S100000x2, .f32⟩
  | 109 => ⟨S1x2, .f32⟩
  | 110 => ⟨S100000x2, .f32⟩
  | 111 => ⟨S100000x2, .f32⟩
  | 112 => ⟨S_, .f32⟩
  | 113 => ⟨S256x2, .f32⟩
  | 114 => ⟨S100000x1, .i32⟩
  | 115 => ⟨S256x2, .f32⟩
  | 116 => ⟨S_, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .f32⟩
  | 123 => ⟨S256, .f32⟩
  | 124 => ⟨S256, .f32⟩
  | 125 => ⟨S256x1, .f32⟩
  | 126 => ⟨S256x2, .f32⟩
  | 127 => ⟨S256x2, .f32⟩
  | _ => ⟨S100000x512, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S256x1, .f32⟩
  | 6 => ⟨S256x2, .f32⟩
  | 7 => ⟨S256x2, .f32⟩
  | 8 => ⟨S256x2, .f32⟩
  | 9 => ⟨S_, .f32⟩
  | 10 => ⟨S256, .f32⟩
  | 11 => ⟨S256x1, .f32⟩
  | 12 => ⟨S256x1, .f32⟩
  | 13 => ⟨S256x2, .f32⟩
  | 14 => ⟨S256x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call1_cst : Ref sig .tc := ⟨.hbm, 128, rfl⟩
abbrev main_call1_v0 : Ref sig .tc := ⟨.hbm, 129, rfl⟩
abbrev main_call1_cst_0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_cst_1 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_v97 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S256x2 : S_.BroadcastsInDim S256x2 (![] : Fin 0 → Fin S256x2.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  reducesTo_S256x2_S256_d1 : S256x2.ReducesTo [1] S256
  h_S_ : 0 < S_.numel
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S256x2_S100000x1_S100000x2_1_0_0_1_wf : ScatterDims.WF S256x2 S100000x1 S100000x2 [1] [0] [0] 1
  scatter_S256_S100000x1_S100000_n_0_0_1_wf : ScatterDims.WF S256 S100000x1 S100000 [] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S256x2_S100000x1_S100000x2_1_0_0_1 : ScatterDims S256x2 S100000x1 S100000x2 where
  updateWindowDims := [1]
  insertedWindowDims := [0]
  scatterDimsToOperandDims := [0]
  indexVectorDim := 1
  wf := scatter_S256x2_S100000x1_S100000x2_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Spec.lean ====
/-
  The two dense projections of the network, as functions of whole arrays over the extended reals: entry (r, j)
  of a rows-by-columns product is the sum over the inner axis of row r of the left factor times column j of the
  right factor.  Both programs compute exactly these two functions (one by row blocks of 2000 on the matrix
  unit, the other as one contraction on the host); everything else in the two programs is the same text.
-/
import Idealize.ShloMosaic.PureOps.Ideal
import Idealize.ShloMosaic.Lib.ValueIdx

noncomputable section

namespace Cert.Spec

open Idealize.ShloMosaic

/-- The first projection: a [100000, 512] array times a [512, 16] array. -/
def proj1 (x : Vec Ideal ⟨2, ![100000, 512]⟩ .f32) (w : Vec Ideal ⟨2, ![512, 16]⟩ .f32) :
    Vec Ideal ⟨2, ![100000, 16]⟩ .f32 :=
  fun i => ∑ q : Fin 512, x (ValueIdx.ix2 (n0 := 100000) (n1 := 512) (i 0) q) * w (ValueIdx.ix2 (n0 := 512) (n1 := 16) q (i 1))

/-- The second projection: a [100000, 16] array times a [16, 2] array. -/
def proj2 (h : Vec Ideal ⟨2, ![100000, 16]⟩ .f32) (w : Vec Ideal ⟨2, ![16, 2]⟩ .f32) :
    Vec Ideal ⟨2, ![100000, 2]⟩ .f32 :=
  fun i => ∑ q : Fin 16, h (ValueIdx.ix2 (n0 := 100000) (n1 := 16) (i 0) q) * w (ValueIdx.ix2 (n0 := 16) (n1 := 2) q (i 1))

end Cert.Spec

end
-- ==== Proof.Region0.lean ====
/-
  The first dense projection, 2000 rows at a time.  Each grid point multiplies its [2000, 512] row block of the
  features by the whole [512, 16] weight array into a zero accumulator and writes the [2000, 16] result block back.
  Over the extended reals the narrowing of the factors changes no value, an entry of the block product is the sum
  over the 512 inner indices, block t of the features is rows 2000 t … 2000 t + 1999, and the fifty row blocks tile
  the 100000 rows: the result array ends holding the whole product.
-/
import proofs.«141244_j78640851189892_1_alg».proof.Proof.Gen.KernelIdeal.Frame
import proofs.«141244_j78640851189892_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

/-! ## The block product at an index -/

/-- The left operand's row coordinate is the output's row. -/
theorem lhs_row (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
/-- The left operand's column coordinate is the inner index. -/
theorem lhs_col (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
/-- The right operand's row coordinate is the inner index. -/
theorem rhs_row (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
/-- The right operand's column coordinate is the output's column. -/
theorem rhs_col (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- Entry (p, q) of the block product: row p of the left block times column q of the right block, summed over the
    inner axis. The narrowing of the operands is the identity on extended reals and the accumulator is zero. -/
theorem pay_apply (x0 : Vec Ideal S2000x512 .f32) (x1 : Vec Ideal S512x16 .f32) (p : Fin 2000) (q : Fin 16) :
    k0_pay1 (F := Ideal) x0 x1 (ValueIdx.ix2 p q) = ∑ k : Fin 512, x0 (ValueIdx.ix2 p k) * x1 (ValueIdx.ix2 k q) := by
  unfold k0_pay1
  simp only [matmul]
  rw [Ideal.matmul_constant_zero_apply, ← Equiv.sum_comp (ValueIdx.contrEquiv1 dot_S2000x512_S512x16_S2000x16_1_0_0_1_n_n 512 rfl rfl).symm]
  refine Finset.sum_congr rfl fun k _ => ?_
  have hk := ValueIdx.contrEquiv1_symm_val dot_S2000x512_S512x16_S2000x16_1_0_0_1_n_n 512 rfl rfl k
  have el : dot_S2000x512_S512x16_S2000x16_1_0_0_1_n_n.lhsIdx (ValueIdx.ix2 p q) ((ValueIdx.contrEquiv1 dot_S2000x512_S512x16_S2000x16_1_0_0_1_n_n 512 rfl rfl).symm k) = ValueIdx.ix2 p k := funext fun a => Fin.ext (by
    match a with
    | ⟨0, _⟩ => exact lhs_row _ _
    | ⟨1, _⟩ => exact (lhs_col _ _).trans hk)
  have er : dot_S2000x512_S512x16_S2000x16_1_0_0_1_n_n.rhsIdx (ValueIdx.ix2 p q) ((ValueIdx.contrEquiv1 dot_S2000x512_S512x16_S2000x16_1_0_0_1_n_n 512 rfl rfl).symm k) = ValueIdx.ix2 k q := funext fun a => Fin.ext (by
    match a with
    | ⟨0, _⟩ => exact (rhs_row _ _).trans hk
    | ⟨1, _⟩ => exact rhs_col _ _)
  show (truncf .bf16 x0 bitsLt_bf16_f32 : FVec Ideal S2000x512 .bf16) _ * (truncf .bf16 x1 bitsLt_bf16_f32 : FVec Ideal S512x16 .bf16) _ = _
  rw [el, er]
  rfl

variable (V : (c : Dev nD) → (b : Ref sig .tc) → Buf (Elt Ideal) ((c : Thread nD τ).loc b))

/-! ## What a point writes back -/

theorem zero_offsets : (![0, 0] : Fin 2 → Nat) = fun _ => 0 := funext fun a => by fin_cases a <;> rfl

/-- The block index maps over the grid: the left factor's and the result's row blocks move with the point, every
    column block and the right factor's block stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left factor's block at point t is row 2000 t + p of the left factor. -/
theorem left_read (c : Dev nD) (t : Fin cfg0.N) (p : Fin 2000) (k : Fin 512) (r : Fin 100000)
    (hr : r.val = t.val * 2000 + p.val) :
    iblk0 V c 0 t (ValueIdx.ix2 p k) = V c main_arg0 (ValueIdx.ix2 (n0 := 100000) (n1 := 512) r k) := by
  obtain ⟨e0, e1, -⟩ := idx_facts t
  have h : ((cfg0.win 0).blk t).view.emb (ValueIdx.ix2 p k) = ValueIdx.ix2 (n0 := 100000) (n1 := 512) r k := by
    funext a; apply Fin.ext
    match a with
    | ⟨0, _⟩ => show win0_0.index t (0 : Fin 2) * 2000 + 1 * p.val = r.val; omega
    | ⟨1, _⟩ => show win0_0.index t (1 : Fin 2) * 512 + 1 * k.val = k.val; omega
  show V c main_arg0 (((cfg0.win 0).blk t).view.emb (ValueIdx.ix2 p k)) = _
  rw [h]

/-- The right factor's block at every point is the right factor. -/
theorem right_read (c : Dev nD) (t : Fin cfg0.N) (k : Fin 512) (q : Fin 16) :
    iblk0 V c 1 t (ValueIdx.ix2 k q) = V c main_arg1 (ValueIdx.ix2 (n0 := 512) (n1 := 16) k q) := by
  obtain ⟨-, -, e2, e3, -⟩ := idx_facts t
  have h : ((cfg0.win 1).blk t).view.emb (ValueIdx.ix2 k q) = ValueIdx.ix2 (n0 := 512) (n1 := 16) k q := by
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  show V c main_arg1 (((cfg0.win 1).blk t).view.emb (ValueIdx.ix2 k q)) = _
  rw [h]

/-- What point t writes back is block t of the product of the two factors as the region finds them. -/
theorem flushed_eq (c : Dev nD) (t : Fin cfg0.N) :
    (dat0 (F := Ideal) V c).flushed 2 t
      = ((cfg0.win 2).blk t).view.read (Elt Ideal) (Cert.Spec.proj1 (V c main_arg0) (V c main_arg1)) := by
  show (cfg0.win 2).cut (grid0.coords t) ((dat0 (F := Ideal) V c).after 2 t) = _
  rw [after0_2]
  unfold out0_2
  rw [View.canon_unit_zero zero_offsets]
  simp only [View.ld_unit_zero (S := S2000x512) zero_offsets, View.ld_unit_zero (S := S512x16) zero_offsets]
  obtain ⟨-, -, -, -, e4, e5⟩ := idx_facts t
  refine funext fun (j : S2000x16.Idx) => ?_
  obtain ⟨p, q, rfl⟩ : ∃ (p : Fin 2000) (q : Fin 16), j = ValueIdx.ix2 p q := ⟨j 0, j 1, ValueIdx.eq_ix2 j⟩
  show k0_pay1 (F := Ideal) (iblk0 V c 0 t) (iblk0 V c 1 t) (ValueIdx.ix2 p q)
    = Cert.Spec.proj1 (V c main_arg0) (V c main_arg1) (((cfg0.win 2).blk t).view.emb (ValueIdx.ix2 p q))
  rw [pay_apply]
  refine Finset.sum_congr rfl fun k _ => ?_
  have h0 : ((((cfg0.win 2).blk t).view.emb (ValueIdx.ix2 p q)) 0).val = t.val * 2000 + p.val := by
    show win0_2.index t (0 : Fin 2) * 2000 + 1 * p.val = _; omega
  have h1 : (((cfg0.win 2).blk t).view.emb (ValueIdx.ix2 p q)) 1 = q := by
    apply Fin.ext
    show win0_2.index t (1 : Fin 2) * 16 + 1 * q.val = _; omega
  rw [left_read V c t p k _ h0, right_read V c t k q, h1]

/-! ## The row blocks tile the result -/

/-- An index of the result is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v4).slice (win0_2.rect t)).set ↔ _
  rw [View.set_slice_whole, Rect.mem_set_unit]
  exact Iff.rfl

/-- Row r of the result lies in the block of point r / 2000, and every point writes its block back. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-- The result array after the run is the product of the two factors as the region finds them. -/
theorem array0 (c : Dev nD) :
    (dat0 (F := Ideal) V c).arrAt 2 cfg0.N = Cert.Spec.proj1 (V c main_arg0) (V c main_arg1) :=
  (dat0 (F := Ideal) V c).arrAt_eq_of_cover 2 (Cert.Spec.proj1 (V c main_arg0) (V c main_arg1))
    (fun t _ => flushed_eq V c t) cover

end Cert.KernelIdeal.Region0

end
-- ==== Proof.Region1.lean ====
/-
  The second dense projection, 2000 rows at a time.  Each grid point multiplies its [2000, 16] row block of the
  hidden layer by the whole [16, 2] weight array into a zero accumulator and writes the [2000, 2] result block back.
  Over the extended reals the narrowing of the factors changes no value, an entry of the block product is the sum
  over the 16 inner indices, block t of the hidden layer is rows 2000 t … 2000 t + 1999, and the fifty row blocks
  tile the 100000 rows: the result array ends holding the whole product.
-/
import proofs.«141244_j78640851189892_1_alg».proof.Proof.Gen.KernelIdeal.Frame
import proofs.«141244_j78640851189892_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen

/-! ## The block product at an index

The body's one arithmetic step is a [2000, 16] by [16, 2] product into a zero accumulator, contracting the left
factor's axis 1 with the right factor's axis 0.  Over the extended reals the format changes are the identity, so
entry (p, q) is the plain sum over the sixteen inner indices. -/

/-- The left operand's index at output index `i` and contraction index `k`: its row is `i`'s row. -/
theorem lhs_row (i : S2000x2.Idx) (k : dot_S2000x16_S16x2_S2000x2_1_0_0_1_n_n.contr.Idx) :
    (dot_S2000x16_S16x2_S2000x2_1_0_0_1_n_n.lhsIdx i k 0).val = (i 0).val := by
  unfold DotDims.lhsIdx
  rw [dif_neg (show ¬(0 : Fin S2000x16.rank) ∈ dot_S2000x16_S16x2_S2000x2_1_0_0_1_n_n.lhsBatch by decide), dif_pos (show (0 : Fin S2000x16.rank) ∈ dot_S2000x16_S16x2_S2000x2_1_0_0_1_n_n.lhsNonContracting by decide)]
  rfl
/-- Its column is the contraction index. -/
theorem lhs_col (i : S2000x2.Idx) (k : dot_S2000x16_S16x2_S2000x2_1_0_0_1_n_n.contr.Idx) :
    (dot_S2000x16_S16x2_S2000x2_1_0_0_1_n_n.lhsIdx i k 1).val = (k ⟨0, by decide⟩).val :=
  dot_S2000x16_S16x2_S2000x2_1_0_0_1_n_n.lhsIdx_val_of_single rfl i k
/-- The right operand's row is the contraction index. -/
theorem rhs_row (i : S2000x2.Idx) (k : dot_S2000x16_S16x2_S2000x2_1_0_0_1_n_n.contr.Idx) :
    (dot_S2000x16_S16x2_S2000x2_1_0_0_1_n_n.rhsIdx i k 0).val = (k ⟨0, by decide⟩).val :=
  dot_S2000x16_S16x2_S2000x2_1_0_0_1_n_n.rhsIdx_val_of_single rfl i k
/-- Its column is `i`'s column. -/
theorem rhs_col (i : S2000x2.Idx) (k : dot_S2000x16_S16x2_S2000x2_1_0_0_1_n_n.contr.Idx) :
    (dot_S2000x16_S16x2_S2000x2_1_0_0_1_n_n.rhsIdx i k 1).val = (i 1).val := by
  unfold DotDims.rhsIdx
  rw [dif_neg (show ¬(1 : Fin S16x2.rank) ∈ dot_S2000x16_S16x2_S2000x2_1_0_0_1_n_n.rhsBatch by decide), dif_pos (show (1 : Fin S16x2.rank) ∈ dot_S2000x16_S16x2_S2000x2_1_0_0_1_n_n.rhsNonContracting by decide)]
  rfl

/-- Entry (p, q) of the body's product of a [2000, 16] block and the [16, 2] factor. -/
theorem pay_apply (x0 : Vec Ideal S2000x16 .f32) (x1 : Vec Ideal S16x2 .f32) (p : Fin 2000) (q : Fin 2) :
    k1_pay1 (F := Ideal) x0 x1 (ValueIdx.ix2 p q) = ∑ k : Fin 16, x0 (ValueIdx.ix2 p k) * x1 (ValueIdx.ix2 k q) := by
  unfold k1_pay1
  rw [shapeCast_self]
  simp only [matmul]
  rw [Ideal.matmul_constant_zero_apply, ← Equiv.sum_comp (ValueIdx.contrEquiv1 dot_S2000x16_S16x2_S2000x2_1_0_0_1_n_n 16 rfl rfl).symm]
  refine Finset.sum_congr rfl fun k _ => ?_
  have hk := ValueIdx.contrEquiv1_symm_val dot_S2000x16_S16x2_S2000x2_1_0_0_1_n_n 16 rfl rfl k
  have el : dot_S2000x16_S16x2_S2000x2_1_0_0_1_n_n.lhsIdx (ValueIdx.ix2 p q) ((ValueIdx.contrEquiv1 dot_S2000x16_S16x2_S2000x2_1_0_0_1_n_n 16 rfl rfl).symm k) = ValueIdx.ix2 p k := funext fun a => Fin.ext (by
    match a with
    | ⟨0, _⟩ => exact lhs_row _ _
    | ⟨1, _⟩ => exact (lhs_col _ _).trans hk)
  have er : dot_S2000x16_S16x2_S2000x2_1_0_0_1_n_n.rhsIdx (ValueIdx.ix2 p q) ((ValueIdx.contrEquiv1 dot_S2000x16_S16x2_S2000x2_1_0_0_1_n_n 16 rfl rfl).symm k) = ValueIdx.ix2 k q := funext fun a => Fin.ext (by
    match a with
    | ⟨0, _⟩ => exact (rhs_row _ _).trans hk
    | ⟨1, _⟩ => exact rhs_col _ _)
  rw [ValueIdx.truncf_apply, ValueIdx.truncf_apply, el, er]

/-! ## One grid point's block

Point `t` of the grid reads rows `2000 t … 2000 t + 1999` of the left factor and the whole right factor, and writes
the same rows of the output: the block it writes back is that block of the whole rows-by-columns product. -/

/-- The body's product at a block index is the whole product at an array index, once the left block's row and the
    right factor's column there are named as the array's. -/
theorem pay_eq_proj2 (h : Vec Ideal S100000x16 .f32) (w : Vec Ideal S16x2 .f32)
    (x0 : Vec Ideal S2000x16 .f32) (x1 : Vec Ideal S16x2 .f32) (j : S2000x2.Idx) (i : S100000x2.Idx)
    (h0 : ∀ k : Fin 16, x0 (ValueIdx.ix2 (n0 := 2000) (n1 := 16) (j 0) k) = h (ValueIdx.ix2 (n0 := 100000) (n1 := 16) (i 0) k))
    (h1 : ∀ k : Fin 16, x1 (ValueIdx.ix2 (n0 := 16) (n1 := 2) k (j 1)) = w (ValueIdx.ix2 (n0 := 16) (n1 := 2) k (i 1))) :
    k1_pay1 (F := Ideal) x0 x1 j = Cert.Spec.proj2 h w i := by
  refine ((congrArg (k1_pay1 (F := Ideal) x0 x1) (ValueIdx.eq_ix2 j)).trans (pay_apply x0 x1 (j 0) (j 1))).trans ?_
  unfold Cert.Spec.proj2
  exact Finset.sum_congr rfl fun k _ => by rw [h0 k, h1 k]

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The printed index maps over the grid: the left factor's and the output's row blocks are both the point's number, every
    column block and the right factor's row block are 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two factors as the region finds them. -/
theorem flushed_eq (c : Dev nD) (t : Fin cfg1.N) :
    (dat1 (F := Ideal) V c).flushed 2 t
      = ((cfg1.win 2).blk t).view.read (Elt Ideal) (Cert.Spec.proj2 (V c main_v44) (V c main_arg3)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S16x2) zero_offsets]
  obtain ⟨e00, e01, e10, e11, e20, e21⟩ := index_facts t
  funext j
  show k1_pay1 (F := Ideal) (iblk1 V c 0 t) (iblk1 V c 1 t) ((cfg1.win 2).xinj (grid1.coords t) j)
    = Cert.Spec.proj2 (V c main_v44) (V c main_arg3) (((cfg1.win 2).blk t).view.emb j)
  refine pay_eq_proj2 _ _ _ _ _ _ (fun k => ?_) (fun k => ?_)
  · show V c main_v44 (((cfg1.win 0).blk t).view.emb (ValueIdx.ix2 ((cfg1.win 2).xinj (grid1.coords t) j 0) k))
      = V c main_v44 (ValueIdx.ix2 (((cfg1.win 2).blk t).view.emb j 0) k)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 16 + 1 * k.val = k.val; omega
  · show V c main_arg3 (((cfg1.win 1).blk t).view.emb (ValueIdx.ix2 k ((cfg1.win 2).xinj (grid1.coords t) j 1)))
      = V c main_arg3 (ValueIdx.ix2 k (((cfg1.win 2).blk t).view.emb j 1))
    refine congrArg _ (funext fun a => Fin.ext ?_)
    match a with
    | ⟨0, _⟩ => show win1_1.index t (0 : Fin 2) * 16 + 1 * k.val = k.val; omega
    | ⟨1, _⟩ => show win1_1.index t (1 : Fin 2) * 2 + 1 * (j 1).val = win1_2.index t (1 : Fin 2) * 2 + 1 * (j 1).val; omega

/-! ## From blocks to the array

The fifty row blocks tile the 100000 rows exactly, so every index of the output lies in the block of the point
`row / 2000`, every point writes its block back, and the array ends holding the whole product. -/

/-- An index of the output array is in point `t`'s block iff each coordinate is in the block's range on its axis. -/
theorem mem_blk (t : Fin cfg1.N) (i : S100000x2.Idx) :
    i ∈ ((cfg1.win 2).blk t).view.set ↔ ∀ a : Fin 2, win1_2.index t a * S2000x2.size a ≤ (i a).val
      ∧ (i a).val < win1_2.index t a * S2000x2.size a + S2000x2.size a := by
  show i ∈ ((View.whole main_v45).slice (win1_2.rect t)).set ↔ _
  rw [View.set_slice_whole, Rect.mem_set_unit]
  exact Iff.rfl

/-- Every index of the output array is in the block of the point its row falls in. -/
theorem cover (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  obtain ⟨t, ht⟩ : ∃ t : Fin cfg1.N, t.val = (i 0).val / 2000 := ⟨⟨(i 0).val / 2000, by show _ < 50; omega⟩, rfl⟩
  obtain ⟨-, -, -, -, e20, e21⟩ := index_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 2 ≤ (i 1).val ∧ (i 1).val < win1_2.index t (1 : Fin 2) * 2 + 2
    omega

/-- The output array after the pipeline is the whole rows-by-columns product of the two factors as the region finds them. -/
theorem array1 (c : Dev nD) :
    (dat1 (F := Ideal) V c).arrAt 2 cfg1.N = Cert.Spec.proj2 (V c main_v44) (V c main_arg3) :=
  (dat1 (F := Ideal) V c).arrAt_eq_of_cover 2 (Cert.Spec.proj2 (V c main_v44) (V c main_arg3))
    (fun t _ => flushed_eq V c t) cover

end Cert.KernelIdeal.Region1

end
-- ==== Proof.Chains.lean ====
/-
  The host stretches the two programs share, read as functions.  Between the first projection and the second
  the program aggregates over the graph's edges (degree, inverse square roots, gather, scale, scatter-add), adds the
  bias and applies the rectifier; after the second projection it aggregates again, adds the bias, pools per graph
  (a sum and a count, the quotient) and takes the log-softmax of each pooled row.  Each stretch, started from buffer
  contents that hold the reference's stages at the buffers it reads, ends with the reference's stage at the
  buffer it is read for: the operations are the same, one by one.  Stated for any float family and any starting
  contents; a buffer a stretch does not write keeps what it held.
-/
import proofs.«141244_j78640851189892_1_alg».proof.Proof.Gen.KernelIdeal.Frame
import proofs.«141244_j78640851189892_1_alg».proof.Proof.Gen.ReferenceIdeal.Read
import Idealize.ShloMosaic.Lib.StableHlo.Run

set_option maxRecDepth 16384

noncomputable section

namespace Cert.KernelIdeal.Chains

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]

/-! ## From the first projection to the rectified hidden layer -/

set_option maxHeartbeats 4000000 in
/-- The hidden layer: from the first projection `h`, the edge endpoints and the first bias, the rectified
    `max(scatter-add of norm · h[src] over dst + b1, 0)`, with `norm` the product of the inverse square roots of the
    degrees at both endpoints. -/
theorem mid_chain (V : Valuation τ sig (Elt F))
    (x0 : (⟨Cert.ReferenceIdeal.S100000x512, .f32⟩ : BufTy).Contents (Elt F)) (x1 : (⟨Cert.ReferenceIdeal.S512x16, .f32⟩ : BufTy).Contents (Elt F))
    (x2 : (⟨Cert.ReferenceIdeal.S16, .f32⟩ : BufTy).Contents (Elt F)) (x5 : (⟨Cert.ReferenceIdeal.S2x3200000, .i32⟩ : BufTy).Contents (Elt F))
    (h4 : V (Proc.devRef .tc main_v4) = val_main_v4 (F := F) x0 x1)
    (h1 : V (Proc.devRef .tc main_v1) = val_main_v1 (F := F) x5)
    (h3 : V (Proc.devRef .tc main_v3) = val_main_v3 (F := F) x5)
    (h2 : V (Proc.devRef .tc main_arg2) = x2) :
    StableHlo.after hostOps1_1 (StableHlo.after hostOps1 V) (Proc.devRef .tc main_v44) = val_main_v44 (F := F) x0 x1 x2 x5 := by
  after_results_simp
  repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))
  rw [h4, h1, h3, h2]
  (try simp only [TRef.ofBuf, TRef.toBuf, cast_eq])
  rfl

/-! What that stretch leaves alone: the edge endpoints and the later arguments. -/

theorem mid_keep_v1 (V : Valuation τ sig (Elt F)) :
    StableHlo.after hostOps1_1 (StableHlo.after hostOps1 V) (Proc.devRef .tc main_v1) = V (Proc.devRef .tc main_v1) := by
  after_results_simp
theorem mid_keep_v3 (V : Valuation τ sig (Elt F)) :
    StableHlo.after hostOps1_1 (StableHlo.after hostOps1 V) (Proc.devRef .tc main_v3) = V (Proc.devRef .tc main_v3) := by
  after_results_simp
theorem mid_keep_arg3 (V : Valuation τ sig (Elt F)) :
    StableHlo.after hostOps1_1 (StableHlo.after hostOps1 V) (Proc.devRef .tc main_arg3) = V (Proc.devRef .tc main_arg3) := by
  after_results_simp
theorem mid_keep_arg4 (V : Valuation τ sig (Elt F)) :
    StableHlo.after hostOps1_1 (StableHlo.after hostOps1 V) (Proc.devRef .tc main_arg4) = V (Proc.devRef .tc main_arg4) := by
  after_results_simp
theorem mid_keep_arg6 (V : Valuation τ sig (Elt F)) :
    StableHlo.after hostOps1_1 (StableHlo.after hostOps1 V) (Proc.devRef .tc main_arg6) = V (Proc.devRef .tc main_arg6) := by
  after_results_simp

/-! ## From the second projection to the result -/

set_option maxHeartbeats 4000000 in
/-- The result: from the second projection, the edge endpoints, the second bias and the graph ids, the
    log-softmax of each graph's mean of the aggregated rows. -/
theorem tail_chain (V : Valuation τ sig (Elt F))
    (x0 : (⟨Cert.ReferenceIdeal.S100000x512, .f32⟩ : BufTy).Contents (Elt F)) (x1 : (⟨Cert.ReferenceIdeal.S512x16, .f32⟩ : BufTy).Contents (Elt F)) (x2 : (⟨Cert.ReferenceIdeal.S16, .f32⟩ : BufTy).Contents (Elt F)) (x3 : (⟨Cert.ReferenceIdeal.S16x2, .f32⟩ : BufTy).Contents (Elt F))
    (x4 : (⟨Cert.ReferenceIdeal.S2, .f32⟩ : BufTy).Contents (Elt F)) (x5 : (⟨Cert.ReferenceIdeal.S2x3200000, .i32⟩ : BufTy).Contents (Elt F)) (x6 : (⟨Cert.ReferenceIdeal.S100000, .i32⟩ : BufTy).Contents (Elt F))
    (h45 : V (Proc.devRef .tc main_v45) = val_main_v45 (F := F) x0 x1 x2 x3 x5)
    (h1 : V (Proc.devRef .tc main_v1) = val_main_v1 (F := F) x5)
    (h3 : V (Proc.devRef .tc main_v3) = val_main_v3 (F := F) x5)
    (h4 : V (Proc.devRef .tc main_arg4) = x4)
    (h6 : V (Proc.devRef .tc main_arg6) = x6) :
    StableHlo.after hostOps2_1 (StableHlo.after hostOps2 V) (Proc.devRef .tc main_v97) = val_main_v97 (F := F) x0 x1 x2 x3 x4 x5 x6 := by
  after_results_simp
  repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))
  rw [h45, h1, h3, h4, h6]
  (try simp only [TRef.ofBuf, TRef.toBuf, cast_eq])
  rfl

end Cert.KernelIdeal.Chains

end
-- ==== Proof.Bridge.lean ====
/-
  The idealized kernel's result is the reference's.  The program runs five host stretches and two row-blocked
  products; the reference runs the same host operations with one whole contraction in place of each product.  Over
  the extended reals a product of a [100000, K] array with a [K, N] array computed 2000 rows at a time is the
  whole contraction (the same sums, entry by entry; narrowing the factors to a shorter float format changes no
  value there), so buffer by buffer the program's contents at each boundary are the reference's stages of the
  same arguments: the edge endpoints, the first projection, the rectified hidden layer, the second projection,
  the result.
-/
import proofs.«141244_j78640851189892_1_alg».proof.Proof.Region0
import proofs.«141244_j78640851189892_1_alg».proof.Proof.Region1
import proofs.«141244_j78640851189892_1_alg».proof.Proof.Chains

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen
open Cert.ReferenceIdeal.Read

/-! ## The two projections are the reference's contractions -/

/-- The first projection is the reference's contraction of the features with the first weights: the same sum over the
    512 inner indices at every entry. -/
theorem proj1_eq (x0 : (⟨Cert.ReferenceIdeal.S100000x512, .f32⟩ : BufTy).Contents (Elt Ideal))
    (x1 : (⟨Cert.ReferenceIdeal.S512x16, .f32⟩ : BufTy).Contents (Elt Ideal)) :
    Cert.Spec.proj1 x0 x1 = val_main_v4 (F := Ideal) x0 x1 := by
  funext i
  rw [val_main_v4_apply]
  unfold Cert.Spec.proj1
  refine Finset.sum_congr rfl fun k _ => ?_
  have e1 : ValueIdx.ix2 (n0 := 100000) (n1 := 512) (i 0) k = lidx_main_v4 i k := funext fun a => Fin.ext (by
    match a with
    | ⟨0, _⟩ => rfl
    | ⟨1, _⟩ => rfl)
  have e2 : ValueIdx.ix2 (n0 := 512) (n1 := 16) k (i 1) = ridx_main_v4 i k := funext fun a => Fin.ext (by
    match a with
    | ⟨0, _⟩ => rfl
    | ⟨1, _⟩ => rfl)
  rw [e1, e2]

/-- The second projection of the reference's hidden layer is the reference's second contraction: the same sum over
    the 16 inner indices at every entry. -/
theorem proj2_eq (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x5 : (⟨Cert.ReferenceIdeal.S2x3200000, .i32⟩ : BufTy).Contents (Elt Ideal)) :
    Cert.Spec.proj2 (val_main_v44 (F := Ideal) x0 x1 x2 x5) x3 = val_main_v45 (F := Ideal) x0 x1 x2 x3 x5 := by
  funext i
  rw [val_main_v45_apply]
  unfold Cert.Spec.proj2
  refine Finset.sum_congr rfl fun k _ => ?_
  have e1 : ValueIdx.ix2 (n0 := 100000) (n1 := 16) (i 0) k = lidx_main_v45 i k := funext fun a => Fin.ext (by
    match a with
    | ⟨0, _⟩ => rfl
    | ⟨1, _⟩ => rfl)
  have e2 : ValueIdx.ix2 (n0 := 16) (n1 := 2) k (i 1) = ridx_main_v45 i k := funext fun a => Fin.ext (by
    match a with
    | ⟨0, _⟩ => rfl
    | ⟨1, _⟩ => rfl)
  rw [e1, e2]

variable (m : (ℓ : Loc nD τ sig) → Buf (Elt Ideal) ℓ) (ρ : Dev nD → PrngReg) (c : Dev nD)

/-! ## Before the first product: the edge endpoints are split off, the arguments untouched -/

theorem W1_v1 : W1 m ρ c (Proc.devRef .tc main_v1) = val_main_v1 (F := Ideal) (m ((c : Thread nD τ).loc main_arg5)) := by
  show StableHlo.after hostOps0 (W0 m ρ c) (Proc.devRef .tc main_v1) = _
  after_results <;> rfl
theorem W1_v3 : W1 m ρ c (Proc.devRef .tc main_v3) = val_main_v3 (F := Ideal) (m ((c : Thread nD τ).loc main_arg5)) := by
  show StableHlo.after hostOps0 (W0 m ρ c) (Proc.devRef .tc main_v3) = _
  after_results <;> rfl
theorem W1_arg0 : W1 m ρ c (Proc.devRef .tc main_arg0) = (m ((c : Thread nD τ).loc main_arg0)) := by
  show StableHlo.after hostOps0 (W0 m ρ c) (Proc.devRef .tc main_arg0) = _
  after_results <;> rfl
theorem W1_arg1 : W1 m ρ c (Proc.devRef .tc main_arg1) = (m ((c : Thread nD τ).loc main_arg1)) := by
  show StableHlo.after hostOps0 (W0 m ρ c) (Proc.devRef .tc main_arg1) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg4 : W1 m ρ c (Proc.devRef .tc main_arg4) = (m ((c : Thread nD τ).loc main_arg4)) := by
  show StableHlo.after hostOps0 (W0 m ρ c) (Proc.devRef .tc main_arg4) = _
  after_results <;> rfl
theorem W1_arg6 : W1 m ρ c (Proc.devRef .tc main_arg6) = (m ((c : Thread nD τ).loc main_arg6)) := by
  show StableHlo.after hostOps0 (W0 m ρ c) (Proc.devRef .tc main_arg6) = _
  after_results <;> rfl

/-! ## After the first product -/

/-- The first product's array is the reference's first contraction of the launch arguments. -/
theorem W2_v4 : W2 m ρ c (Proc.devRef .tc main_v4) = val_main_v4 (F := Ideal) (m ((c : Thread nD τ).loc main_arg0)) (m ((c : Thread nD τ).loc main_arg1)) := by
  refine (W2_arr m ρ c 2).trans ?_
  rw [Cert.KernelIdeal.Region0.array0 (V1 m ρ) c]
  show Cert.Spec.proj1 (W1 m ρ c (Proc.devRef .tc main_arg0)) (W1 m ρ c (Proc.devRef .tc main_arg1)) = _
  rw [W1_arg0, W1_arg1]
  exact proj1_eq _ _
theorem W2_v1 : W2 m ρ c (Proc.devRef .tc main_v1) = val_main_v1 (F := Ideal) (m ((c : Thread nD τ).loc main_arg5)) :=
  (W2_of_ne m ρ c main_v1 (by decide)).trans (W1_v1 m ρ c)
theorem W2_v3 : W2 m ρ c (Proc.devRef .tc main_v3) = val_main_v3 (F := Ideal) (m ((c : Thread nD τ).loc main_arg5)) :=
  (W2_of_ne m ρ c main_v3 (by decide)).trans (W1_v3 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg6 : W2 m ρ c (Proc.devRef .tc main_arg6) = (m ((c : Thread nD τ).loc main_arg6)) :=
  (W2_of_ne m ρ c main_arg6 (by decide)).trans (W1_arg6 m ρ c)

/-! ## Before the second product: the rectified hidden layer -/

theorem W4_v44 : W4 m ρ c (Proc.devRef .tc main_v44) = val_main_v44 (F := Ideal) (m ((c : Thread nD τ).loc main_arg0)) (m ((c : Thread nD τ).loc main_arg1)) (m ((c : Thread nD τ).loc main_arg2)) (m ((c : Thread nD τ).loc main_arg5)) :=
  Cert.KernelIdeal.Chains.mid_chain (W2 m ρ c) _ _ _ _ (W2_v4 m ρ c) (W2_v1 m ρ c) (W2_v3 m ρ c) (W2_arg2 m ρ c)
theorem W4_v1 : W4 m ρ c (Proc.devRef .tc main_v1) = val_main_v1 (F := Ideal) (m ((c : Thread nD τ).loc main_arg5)) :=
  (Cert.KernelIdeal.Chains.mid_keep_v1 (W2 m ρ c)).trans (W2_v1 m ρ c)
theorem W4_v3 : W4 m ρ c (Proc.devRef .tc main_v3) = val_main_v3 (F := Ideal) (m ((c : Thread nD τ).loc main_arg5)) :=
  (Cert.KernelIdeal.Chains.mid_keep_v3 (W2 m ρ c)).trans (W2_v3 m ρ c)
theorem W4_arg3 : W4 m ρ c (Proc.devRef .tc main_arg3) = (m ((c : Thread nD τ).loc main_arg3)) :=
  (Cert.KernelIdeal.Chains.mid_keep_arg3 (W2 m ρ c)).trans (W2_arg3 m ρ c)
theorem W4_arg4 : W4 m ρ c (Proc.devRef .tc main_arg4) = (m ((c : Thread nD τ).loc main_arg4)) :=
  (Cert.KernelIdeal.Chains.mid_keep_arg4 (W2 m ρ c)).trans (W2_arg4 m ρ c)
theorem W4_arg6 : W4 m ρ c (Proc.devRef .tc main_arg6) = (m ((c : Thread nD τ).loc main_arg6)) :=
  (Cert.KernelIdeal.Chains.mid_keep_arg6 (W2 m ρ c)).trans (W2_arg6 m ρ c)

/-! ## After the second product -/

/-- The second product's array is the reference's second contraction. -/
theorem W5_v45 : W5 m ρ c (Proc.devRef .tc main_v45)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W5_arr m ρ c 2).trans ?_
  rw [Cert.KernelIdeal.Region1.array1 (V4 m ρ) c]
  show Cert.Spec.proj2 (W4 m ρ c (Proc.devRef .tc main_v44)) (W4 m ρ c (Proc.devRef .tc main_arg3)) = _
  rw [W4_v44, W4_arg3]
  exact proj2_eq _ _ _ _ _
theorem W5_v1 : W5 m ρ c (Proc.devRef .tc main_v1) = val_main_v1 (F := Ideal) (m ((c : Thread nD τ).loc main_arg5)) :=
  (W5_of_ne m ρ c main_v1 (by decide)).trans (W4_v1 m ρ c)
theorem W5_v3 : W5 m ρ c (Proc.devRef .tc main_v3) = val_main_v3 (F := Ideal) (m ((c : Thread nD τ).loc main_arg5)) :=
  (W5_of_ne m ρ c main_v3 (by decide)).trans (W4_v3 m ρ c)
theorem W5_arg4 : W5 m ρ c (Proc.devRef .tc main_arg4) = (m ((c : Thread nD τ).loc main_arg4)) :=
  (W5_of_ne m ρ c main_arg4 (by decide)).trans (W4_arg4 m ρ c)
theorem W5_arg6 : W5 m ρ c (Proc.devRef .tc main_arg6) = (m ((c : Thread nD τ).loc main_arg6)) :=
  (W5_of_ne m ρ c main_arg6 (by decide)).trans (W4_arg6 m ρ c)

/-! ## The result -/

/-- The result buffer after the last stretch is the reference's last stage of the launch arguments. -/
theorem W7_v97 : W7 m ρ c (Proc.devRef .tc main_v97)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.KernelIdeal.Chains.tail_chain (W5 m ρ c) _ _ _ _ _ _ _ (W5_v45 m ρ c) (W5_v1 m ρ c) (W5_v3 m ρ c) (W5_arg4 m ρ c) (W5_arg6 m ρ c)

end Cert.KernelIdeal.Bridge

end
-- ==== Proof.lean ====
/-
  A two-layer graph convolution with mean pooling and a log-softmax, against its plain reference, over the
  extended reals.  The program computes each layer's dense projection (features times weights) on the matrix unit,
  2000 rows at a time, with the factors narrowed to a shorter float format; the reference computes each as one
  contraction.  Everything else (splitting the edge list, degrees, inverse square roots, gather, scale,
  scatter-add, bias, rectifier, pooling, log-softmax) is the same sequence of operations in both.  Over the
  extended reals narrowing changes no value and a row-blocked product has, entry by entry, the sums of the whole
  contraction, so the two programs' results are one function of the arguments.  No finiteness of the inputs is
  used: the two sides are the same sums in the same order of the same terms, and no algebraic law is applied
  to them.

  The three frames: the program's two frames are the generated ones; the reference's is its run with the result
  dropped.  The idealization rewrote no operation, so its claim is trivial.  The value claim: the program's run
  with its result named (the launch called with a post that keeps the result buffer), the buffer-by-buffer
  comparison with the reference's stages, and the reference's run.
-/
import proofs.«141244_j78640851189892_1_alg».proof.Defs
import proofs.«141244_j78640851189892_1_alg».proof.Proof.Gen.Kernel
import proofs.«141244_j78640851189892_1_alg».proof.Proof.Gen.Kernel.Skeleton
import proofs.«141244_j78640851189892_1_alg».proof.Proof.Gen.Kernel.Launch
import proofs.«141244_j78640851189892_1_alg».proof.Proof.Gen.Kernel.Points
import proofs.«141244_j78640851189892_1_alg».proof.Proof.Gen.Kernel.Frame
import proofs.«141244_j78640851189892_1_alg».proof.Proof.Gen.KernelIdeal
import proofs.«141244_j78640851189892_1_alg».proof.Proof.Gen.KernelIdeal.Skeleton
import proofs.«141244_j78640851189892_1_alg».proof.Proof.Gen.KernelIdeal.Launch
import proofs.«141244_j78640851189892_1_alg».proof.Proof.Gen.KernelIdeal.Points
import proofs.«141244_j78640851189892_1_alg».proof.Proof.Gen.KernelIdeal.Frame
import proofs.«141244_j78640851189892_1_alg».proof.Proof.Gen.ReferenceIdeal
import proofs.«141244_j78640851189892_1_alg».proof.Proof.Gen.ReferenceIdeal.Run
import proofs.«141244_j78640851189892_1_alg».proof.Proof.Gen.ReferenceIdeal.Read
import proofs.«141244_j78640851189892_1_alg».proof.Proof.Gen.Pre_finite_inputs
import proofs.«141244_j78640851189892_1_alg».proof.Proof.KernelRun
import proofs.«141244_j78640851189892_1_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the reference's last stage of arguments that agree. -/
theorem algebraic : Cert.algebraic_KernelIdeal_ReferenceIdeal := by
  intro m ρ m' ρ' _ hagree
  refine ⟨_, Cert.KernelIdeal.RunNamed.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, Cert.KernelIdeal.Bridge.W7_v97]
  obtain ⟨h0, h1, h2, h3, h4, h5, h6⟩ := hagree c
  rw [h0, h1, h2, h3, h4, h5, h6]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
